-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S1024x1024 : Shape := ⟨2, ![1024, 1024]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x64x256x256 .f32) (main_arg1 : FVec F S1024x1024 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16x64x256x256 : Shape := ⟨4, ![16, 64, 256, 256]⟩
abbrev S1024x1024 : Shape := ⟨2, ![1024, 1024]⟩
abbrev S16x64x64x4x64x4 : Shape := ⟨6, ![16, 64, 64, 4, 64, 4]⟩
abbrev S16x64x64x64x4x4 : Shape := ⟨6, ![16, 64, 64, 64, 4, 4]⟩
abbrev S65536x1024 : Shape := ⟨2, ![65536, 1024]⟩

abbrev nBuf : Space → Nat
  | .hbm => 11
  | .vmem => 5
  | .smem => 0
  | _ => 0

abbrev bufTy : (tb : Table) → Fin (tcTables nBuf tb) → BufTy
  | .hbm, ⟨0, _⟩ => ⟨S16x64x256x256, .f32⟩
  | .hbm, ⟨1, _⟩ => ⟨S1024x1024, .f32⟩
  | .hbm, ⟨2, _⟩ => ⟨S16x64x64x4x64x4, .f32⟩
  | .hbm, ⟨3, _⟩ => ⟨S16x64x64x64x4x4, .f32⟩
  | .hbm, ⟨4, _⟩ => ⟨S65536x1024, .f32⟩
  | .hbm, ⟨5, _⟩ => ⟨S1024x1024, .f32⟩
  | .hbm, ⟨6, _⟩ => ⟨S1024x1024, .bf16⟩
  | .hbm, ⟨7, _⟩ => ⟨S65536x1024, .f32⟩
  | .hbm, ⟨8, _⟩ => ⟨S16x64x64x64x4x4, .f32⟩
  | .hbm, ⟨9, _⟩ => ⟨S16x64x64x4x64x4, .f32⟩
  | .hbm, ⟨10, _⟩ => ⟨S16x64x256x256, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x64x256x256_S16x64x64x4x64x4 : S16x64x256x256.ShapeCasts S16x64x64x4x64x4
  transposes_S16x64x64x4x64x4_S16x64x64x64x4x4_0_2_4_1_3_5 : S16x64x64x4x64x4.Transposes [0, 2, 4, 1, 3, 5] S16x64x64x64x4x4
  shapeCasts_S16x64x64x64x4x4_S65536x1024 : S16x64x64x64x4x4.ShapeCasts S65536x1024
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S65536x1024_S16x64x64x64x4x4 : S65536x1024.ShapeCasts S16x64x64x64x4x4
  transposes_S16x64x64x64x4x4_S16x64x64x4x64x4_0_3_1_4_2_5 : S16x64x64x64x4x4.Transposes [0, 3, 1, 4, 2, 5] S16x64x64x4x64x4
  shapeCasts_S16x64x64x4x64x4_S16x64x256x256 : S16x64x64x4x64x4.ShapeCasts S16x64x256x256
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S1024x1024 : Shape := ⟨2, ![1024, 1024]⟩
abbrev S16x64x64x4x64x4 : Shape := ⟨6, ![16, 64, 64, 4, 64, 4]⟩
abbrev S16x64x64x64x4x4 : Shape := ⟨6, ![16, 64, 64, 64, 4, 4]⟩
abbrev S16x4096x1024 : Shape := ⟨3, ![16, 4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S1024x1024, .f32⟩
  | .hbm, ⟨2, _⟩ => ⟨S16x64x64x4x64x4, .f32⟩
  | .hbm, ⟨3, _⟩ => ⟨S16x64x64x64x4x4, .f32⟩
  | .hbm, ⟨4, _⟩ => ⟨S16x4096x1024, .f32⟩
  | .hbm, ⟨5, _⟩ => ⟨S16x4096x1024, .f32⟩
  | .hbm, ⟨6, _⟩ => ⟨S16x64x64x64x4x4, .f32⟩
  | .hbm, ⟨7, _⟩ => ⟨S16x64x64x4x64x4, .f32⟩
  | .hbm, ⟨8, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S16x64x256x256_S16x64x64x4x64x4 : S16x64x256x256.ShapeCasts S16x64x64x4x64x4
  transposes_S16x64x64x4x64x4_S16x64x64x64x4x4_0_2_4_1_3_5 : S16x64x64x4x64x4.Transposes [0, 2, 4, 1, 3, 5] S16x64x64x64x4x4
  shapeCasts_S16x64x64x64x4x4_S16x4096x1024 : S16x64x64x64x4x4.ShapeCasts S16x4096x1024
  shapeCasts_S16x4096x1024_S16x64x64x64x4x4 : S16x4096x1024.ShapeCasts S16x64x64x64x4x4
  transposes_S16x64x64x64x4x4_S16x64x64x4x64x4_0_3_1_4_2_5 : S16x64x64x64x4x4.Transposes [0, 3, 1, 4, 2, 5] S16x64x64x4x64x4
  shapeCasts_S16x64x64x4x64x4_S16x64x256x256 : S16x64x64x4x64x4.ShapeCasts S16x64x256x256
  dot_S16x4096x1024_S1024x1024_S16x4096x1024_2_1_01_0_n_n_wf : DotDims.WF S16x4096x1024 S1024x1024 S16x4096x1024 [2] [1] [0, 1] [0] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf

class Facts : Prop extends Facts₀ where

variable [Facts]
-- ==== Proof.BlockProduct.lean ====
/-
  One grid point's work. The body loads a 1024 × 1024 block `a` of the patch rows and the whole 1024 × 1024 matrix
  `b` (the weight, transposed before the call), narrows `a` to bf16 — the identity on extended reals — and stores
  `a · b` accumulated into zero. Entry `(p, q)` of what it stores is therefore `∑ k, a (p, k) · b (k, q)`.
-/
import proofs.«170082_j6133213298738_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-! ## The matmul's operand indices, axis by axis

The left operand is read at (output row, contraction position), the right at (contraction position, output column). -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The stored block at an entry -/

/-- Entry `(p, q)` of the block the body stores: row `p` of the loaded rows against column `q` of the loaded matrix. -/
theorem stored_apply (a : Vec Ideal S1024x1024 .f32) (b : Vec Ideal S1024x1024 .bf16) (p q : Fin 1024) :
    k0_pay1 (F := Ideal) a b (ix2 p q) = ∑ k : Fin 1024, a (ix2 p k) * b (ix2 k q) := by
  unfold k0_pay1
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun d => Fin.ext (by
    match d with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun d => Fin.ext (by
    match d with
    | ⟨0, _⟩ => exact (rhs_row _ _).trans hk
    | ⟨1, _⟩ => exact rhs_col _ _)
  rw [el, er, shapeCast_self, shapeCast_self]
  rfl

end Cert.KernelIdeal.BlockProduct

end
-- ==== Proof.LibReshape.lean ====
/-
  Reshapes compose. A reshape (`shapeCast`) reads its operand at the index with the same row-major position, so a
  reshape of a reshape is the reshape straight to the last shape, whatever the shape in the middle.
-/
import Idealize.ShloMosaic.PureOps.Ideal
import Idealize.ShloMosaic.Lib.Pipeline.Value

noncomputable section

namespace Cert.LibReshape

open Idealize.ShloMosaic

/-- A reshape of a reshape is the reshape to the last shape: each step keeps the row-major position
    (`Shape.reshapeEquiv_reshapeEquiv`). Stated with the direct fact `h''` as an argument, so that it rewrites towards
    whichever side a proof needs: `rw [shapeCast_shapeCast_of x h h' h'']` fuses two reshapes,
    `rw [← shapeCast_shapeCast_of x h h' h'']` routes one reshape through a middle shape. -/
theorem shapeCast_shapeCast_of {s t u : Shape} {α : Type} (x : s.Idx → α) (h : s.ShapeCasts t) (h' : t.ShapeCasts u)
    (h'' : s.ShapeCasts u) : shapeCast u (shapeCast t x h) h' = shapeCast u x h'' :=
  funext fun j => congrArg x (Shape.reshapeEquiv_reshapeEquiv h h' j)

end Cert.LibReshape

end
-- ==== Proof.PatchMix.lean ====
/-
  The mathematics both programs share.

  An image `x : [16, 64, 256, 256]` is cut into non-overlapping 4 × 4 patches: `unfold x` is the rank-6 array
  `[16, 64, 64, 64, 4, 4]` (image, patch row, patch column, channel, row in patch, column in patch), a reshape
  followed by a permutation of axes. Read as a matrix of 65536 rows of 1024 entries (one row per patch) it is
  multiplied by the transpose of the weight `W : [1024, 1024]`:

      mix A W (r, e) = ∑ k, A (r, k) · W (e, k),

  and `fold` puts the rows back into the image's layout. The result of both programs is
  `mixed x W = fold (mix (unfold x as rows) W)`.

  The kernel forms the rows as a `[65536, 1024]` matrix; the reference as `[16, 4096, 1024]`, contracting the last
  axis against `W`'s last. The two are one array under two shapes (a reshape keeps row-major order, and reshapes
  compose: `shapeCast_shapeCast_of`), and the batched contraction of the reshaped matrix is the reshaped product
  (`batchedMix_shapeCast`). Only the order of the two factors' indices differs between the two sides, never the order
  of the sum, so no finiteness of the entries is used.
-/
import Idealize.ShloMosaic.PureOps.Ideal
import Idealize.ShloMosaic.Lib.ValueIdx
import Idealize.ShloMosaic.Lib.Pipeline.Value
import proofs.«170082_j6133213298738_1_alg».proof.Proof.LibReshape

noncomputable section

open scoped BigOperators

namespace Cert.PatchMix

open Idealize.ShloMosaic Idealize.ShloMosaic.ValueIdx
open Cert.LibReshape (shapeCast_shapeCast_of)

/-! ## Shapes -/

/-- The image: batch, channel, height, width. -/
abbrev Image : Shape := ⟨4, ![16, 64, 256, 256]⟩
/-- Height and width each split into (patch, offset in patch). -/
abbrev Split : Shape := ⟨6, ![16, 64, 64, 4, 64, 4]⟩
/-- Patch coordinates first, then what is inside a patch. -/
abbrev Patches : Shape := ⟨6, ![16, 64, 64, 64, 4, 4]⟩
/-- One row per patch. -/
abbrev Rows : Shape := ⟨2, ![65536, 1024]⟩
/-- The rows grouped by image. -/
abbrev Batched : Shape := ⟨3, ![16, 4096, 1024]⟩
/-- The weight. -/
abbrev Square : Shape := ⟨2, ![1024, 1024]⟩

theorem image_split : Image.ShapeCasts Split := by decide
theorem split_patches : Split.Transposes [0, 2, 4, 1, 3, 5] Patches := by decide
theorem patches_split : Patches.Transposes [0, 3, 1, 4, 2, 5] Split := by decide
theorem split_image : Split.ShapeCasts Image := by decide
theorem patches_rows : Patches.ShapeCasts Rows := by decide
theorem rows_patches : Rows.ShapeCasts Patches := by decide
theorem patches_batched : Patches.ShapeCasts Batched := by decide
theorem batched_patches : Batched.ShapeCasts Patches := by decide
theorem rows_batched : Rows.ShapeCasts Batched := by decide

/-! ## The product -/

/-- Row `r` of `A` against row `e` of `W`: the entry `(r, e)` of `A · Wᵀ`. -/
def mix (A : Rows.Idx → EReal) (W : Square.Idx → EReal) : Rows.Idx → EReal :=
  fun i => ∑ k : Fin 1024, A (ix2 (i 0) k) * W (ix2 (i 1) k)

/-- The same contraction of rows grouped by image: entry `(b, l, e)`. -/
def batchedMix (A : Batched.Idx → EReal) (W : Square.Idx → EReal) : Batched.Idx → EReal :=
  fun i => ∑ k : Fin 1024, A (ix3 (i 0) (i 1) k) * W (ix2 (i 2) k)

/-- Row `l` of image `b` is row `4096 b + l` of the matrix. -/
theorem shapeCast_rows_apply (A : Rows.Idx → EReal) (b : Fin 16) (l : Fin 4096) (k : Fin 1024) :
    shapeCast Batched A rows_batched (ix3 b l k) = A (ix2 ⟨b.val * 4096 + l.val, by omega⟩ k) :=
  shapeCast_apply A rows_batched (ix3 b l k) (ix2 ⟨b.val * 4096 + l.val, by omega⟩ k) (by
    rw [Shape.rowMajor_val_two, Shape.rowMajor_val_three]; rfl)

/-- The batched contraction of the matrix read by image is the product read by image. -/
theorem batchedMix_shapeCast (A : Rows.Idx → EReal) (W : Square.Idx → EReal) :
    batchedMix (shapeCast Batched A rows_batched) W = shapeCast Batched (mix A W) rows_batched := by
  funext i
  obtain ⟨b, l, e, rfl⟩ : ∃ (b : Fin 16) (l : Fin 4096) (e : Fin 1024), i = ix3 b l e := ⟨i 0, i 1, i 2, eq_ix3 i⟩
  rw [shapeCast_apply (mix A W) rows_batched (ix3 b l e) (ix2 ⟨b.val * 4096 + l.val, by omega⟩ e) (by
    rw [Shape.rowMajor_val_two, Shape.rowMajor_val_three]; rfl)]
  unfold batchedMix mix
  refine Finset.sum_congr rfl fun k _ => ?_
  exact congrArg (· * W (ix2 e k)) (shapeCast_rows_apply A b l k)

/-! ## Unfold, mix, fold -/

/-- The image as patches. -/
def unfold (x : Image.Idx → EReal) : Patches.Idx → EReal :=
  transpose Patches [0, 2, 4, 1, 3, 5] (shapeCast Split x image_split) split_patches

/-- Patches back into the image's layout. -/
def fold (y : Patches.Idx → EReal) : Image.Idx → EReal :=
  shapeCast Image (transpose Split [0, 3, 1, 4, 2, 5] y patches_split) split_image

/-- What both programs compute: every patch, as a row, times `Wᵀ`, folded back. -/
def mixed (x : Image.Idx → EReal) (W : Square.Idx → EReal) : Image.Idx → EReal :=
  fold (shapeCast Patches (mix (shapeCast Rows (unfold x) patches_rows) W) rows_patches)

/-- The reference's route to the same array: the patches grouped by image, contracted, and read as patches again. -/
theorem batched_route (x : Image.Idx → EReal) (W : Square.Idx → EReal) :
    shapeCast Patches (batchedMix (shapeCast Batched (unfold x) patches_batched) W) batched_patches
      = shapeCast Patches (mix (shapeCast Rows (unfold x) patches_rows) W) rows_patches := by
  rw [← shapeCast_shapeCast_of (unfold x) patches_rows rows_batched patches_batched, batchedMix_shapeCast,
    shapeCast_shapeCast_of _ rows_batched batched_patches rows_patches]

end Cert.PatchMix

end
-- ==== Proof.KernelArray.lean ====
/-
  The kernel's output array after its 64 grid points.

  The region finds the patch rows `A = unfold x` read as a `[65536, 1024]` matrix, and the weight transposed:
  `Wt (k, q) = W (q, k)` (the narrowing to bf16 changes nothing on extended reals). Point `t` loads rows
  `1024 t … 1024 t + 1023` of `A` and all of `Wt`, and writes back the same rows of the output; by the block's
  arithmetic (`BlockProduct.stored_apply`) what it writes is those rows of `mix A W`. The 64 blocks tile the rows,
  so the array ends at `mix A W`.
-/
import proofs.«170082_j6133213298738_1_alg».proof.Proof.Gen.KernelIdeal.Frame
import proofs.«170082_j6133213298738_1_alg».proof.Proof.BlockProduct
import proofs.«170082_j6133213298738_1_alg».proof.Proof.PatchMix
import Idealize.ShloMosaic.Lib.Pipeline.Value
import Idealize.ShloMosaic.Lib.StableHlo.Run

set_option maxRecDepth 16384

noncomputable section

open scoped BigOperators

namespace Cert.KernelIdeal.MixArray

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.PatchMix (mix unfold)

variable (m : (ℓ : Loc nD τ sig) → Buf (Elt Ideal) ℓ)

/-! ## The arrays as the region finds them -/

/-- The image and the weight as launched. -/
abbrev image (c : Dev nD) : Cert.PatchMix.Image.Idx → EReal := m ((c : Thread nD τ).loc main_arg0)
abbrev weight (c : Dev nD) : Cert.PatchMix.Square.Idx → EReal := m ((c : Thread nD τ).loc main_arg1)

/-- The patch rows: the image unfolded, one row per patch. -/
abbrev rows (c : Dev nD) : Cert.PatchMix.Rows.Idx → EReal :=
  shapeCast Cert.PatchMix.Rows (unfold (image m c)) Cert.PatchMix.patches_rows

/-- Window 0's array is the patch rows. -/
theorem rows_eq (c : Dev nD) : (V m c main_v2 : S65536x1024.Idx → EReal) = rows m c := by
  show StableHlo.after hostOps0 (fun b => m (c, b)) (Proc.devRef .tc main_v2) = _
  after_results
  rfl

/-- Window 1's array is the weight transposed (and narrowed, which is the identity here). -/
theorem weightT_eq (c : Dev nD) : (V m c main_v4 : S1024x1024.Idx → EReal)
    = transpose S1024x1024 [1, 0] (weight m c) Facts₀.transposes_S1024x1024_S1024x1024_1_0 := by
  show StableHlo.after hostOps0 (fun b => m (c, b)) (Proc.devRef .tc main_v4) = _
  after_results
  rfl

/-- Its entry `(k, q)` is the weight's entry `(q, k)`. -/
theorem weightT_apply (c : Dev nD) (k q : Fin 1024) :
    (V m c main_v4 : S1024x1024.Idx → EReal) (ix2 k q) = weight m c (ix2 q k) := by
  rw [weightT_eq]
  exact transpose_apply [1, 0] (weight m c) Facts₀.transposes_S1024x1024_S1024x1024_1_0 (ix2 k q) (ix2 q k) (fun b => match b with
    | ⟨0, _⟩ => rfl
    | ⟨1, _⟩ => rfl)

/-! ## What a point writes back -/

theorem zero_offsets : (![0, 0] : Fin 2 → Nat) = fun _ => 0 := funext fun a => by fin_cases a <;> rfl

/-- The printed index maps over the grid: the rows window and the output window sit on block row `t`, column block 0;
    the weight window never moves. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every block row is some point's. -/
theorem index_onto : ∀ q0 : Fin 64, ∃ t : Fin cfg0.N, win0_2.index t = ![q0.val, 0] :=
  (by decide +kernel : ∀ q0 : Fin 64, ∃ t : Fin grid0.N, win0_2.index t = ![q0.val, 0])

/-- The block of rows point `t` loads, read at `(p, k)`: row `p` of the output block's rows, column `k`. -/
theorem rows_block (c : Dev nD) (t : Fin cfg0.N) (j : S1024x1024.Idx) (k : Fin 1024) :
    iblk m c 0 t (ix2 (j 0) k) = rows m c (ix2 ((((cfg0.win 2).blk t).view.emb j) 0) k) := by
  obtain ⟨e0, e1, e2, e3, e4, e5⟩ := index_facts t
  show V m c main_v2 (((cfg0.win 0).blk t).view.emb (ix2 (j 0) k)) = _
  rw [rows_eq]
  refine congrArg (rows m c) (funext fun a => Fin.ext ?_)
  match a with
  | ⟨0, _⟩ => show win0_0.index t (0 : Fin 2) * 1024 + 1 * (j 0).val = win0_2.index t (0 : Fin 2) * 1024 + 1 * (j 0).val; omega
  | ⟨1, _⟩ => show win0_0.index t (1 : Fin 2) * 1024 + 1 * k.val = k.val; omega

/-- The matrix point `t` loads is the whole transposed weight: at `(k, q)` the weight's `(column of the output, k)`. -/
theorem weight_block (c : Dev nD) (t : Fin cfg0.N) (j : S1024x1024.Idx) (k : Fin 1024) :
    iblk m c 1 t (ix2 k (j 1)) = weight m c (ix2 ((((cfg0.win 2).blk t).view.emb j) 1) k) := by
  obtain ⟨e0, e1, e2, e3, e4, e5⟩ := index_facts t
  show (V m c main_v4 : S1024x1024.Idx → EReal) (((cfg0.win 1).blk t).view.emb (ix2 k (j 1))) = _
  have hpos : ((cfg0.win 1).blk t).view.emb (ix2 k (j 1)) = ix2 k ((((cfg0.win 2).blk t).view.emb j) 1) := by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega
  rw [hpos]
  exact weightT_apply m c k _

/-- WHAT POINT `t` WRITES BACK is block `t` of the product of the patch rows with the transposed weight. -/
theorem flushed_eq (c : Dev nD) (t : Fin cfg0.N) :
    (dats m 0 c).flushed 2 t = ((cfg0.win 2).blk t).view.read (Elt Ideal) (mix (rows m c) (weight m c)) := by
  show (cfg0.win 2).cut (grid0.coords t) ((dats m 0 c).after 2 t) = _
  rw [after0_2]
  unfold out0_2
  rw [View.canon_unit_zero zero_offsets]
  simp only [View.ld_unit_zero (S := S1024x1024) zero_offsets]
  funext j
  show k0_pay1 (F := Ideal) (iblk m c 0 t) (iblk m c 1 t) j = mix (rows m c) (weight m c) (((cfg0.win 2).blk t).view.emb j)
  rw [eq_ix2 j]
  refine (BlockProduct.stored_apply (iblk m c 0 t) (iblk m c 1 t) (j 0) (j 1)).trans ?_
  unfold mix
  refine Finset.sum_congr rfl fun k _ => ?_
  rw [← eq_ix2 j, rows_block m c t j k, weight_block m c t j k]

/-! ## The blocks tile the rows -/

/-- An index of the array is in point `t`'s block iff each coordinate is in the block's range on its axis. -/
theorem mem_block (t : Fin cfg0.N) (i : S65536x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v5).slice (win0_2.rect t)).set ↔ _
  rw [View.set_slice_whole, Rect.mem_set_unit]
  exact Iff.rfl

/-- Row `r` lies in the block of the point on block row `r / 1024`. -/
theorem covered (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  obtain ⟨t, ht⟩ := index_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT ARRAY after the run: every patch row times the transposed weight. -/
theorem final (c : Dev nD) : (dats m 0 c).arrAt 2 cfg0.N = mix (rows m c) (weight m c) :=
  (dats m 0 c).arrAt_eq_of_cover 2 (mix (rows m c) (weight m c)) (fun t _ => flushed_eq m c t) covered

end Cert.KernelIdeal.MixArray

end
-- ==== Proof.KernelRun.lean ====
/-
  The kernel program's run, with its result named. After the region the output array holds the product of the patch
  rows with the transposed weight (`MixArray.final`); the three lines that follow — reshape to patches, permute the
  axes back, reshape to the image — are `PatchMix.fold` of that array read as patches. So the program ends with
  its result at `PatchMix.mixed` of the two arguments, and the arguments as launched.
-/
import proofs.«170082_j6133213298738_1_alg».proof.Proof.Gen.KernelIdeal.Frame
import proofs.«170082_j6133213298738_1_alg».proof.Proof.KernelArray
import Idealize.ShloMosaic.Lib.Pipeline.Value
import Idealize.ShloMosaic.Lib.StableHlo.Run

set_option maxRecDepth 16384

noncomputable section

namespace Cert.KernelIdeal.MixRun

open Cert.KernelIdeal Cert.KernelIdeal.Gen Cert.KernelIdeal.MixArray Idealize.ShloMosaic Idealize.ShloMosaic.TcCoe
open Idealize.SL.Sem Idealize.ShloMosaic.StableHlo
open Cert.PatchMix (mix mixed)

variable (m : (ℓ : Loc nD τ sig) → Buf (Elt Ideal) ℓ) (ρ : Dev nD → PrngReg)

/-- The result buffer after the lines that follow the region: the output array folded back into the image's layout. -/
theorem result_eq (c : Dev nD) :
    (Pipeline.afterTail₀ cfgs (dats m) 0 (V0 m) [hostOps1] c main_v8 : S16x64x256x256.Idx → EReal)
      = mixed (image m c) (weight m c) := by
  unfold Pipeline.afterTail₀
  show StableHlo.after hostOps1 _ (Proc.devRef .tc main_v8) = _
  after_results
  rw [show Pipeline.withArrays spec0 c (V0 m c) (fun w => (dats m 0 c).arrAt w cfg0.N) (Proc.devRef .tc main_v5) = mix (rows m c) (weight m c) from
    (Pipeline.withArrays_arr spec0 launch0.win.arr_inj c _ _ 2).trans (final m c)]
  rfl

/-- Every weakly fair execution of the kernel program terminates with its result at the mixed image and its
    arguments unchanged. -/
theorem run : θ_run defs (onTc (τ := τ) (main (F := Ideal))) ⟨m, fun _ => 0, ρ⟩ fun r => ∀ c : Dev nD,
      r.2.mem ((c.tc : Thread nD τ).loc main_v8) = mixed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.MixRun

end
-- ==== Proof.ReferenceValue.lean ====
/-
  The reference's result. Its `dot_general` contracts the last axis of the patch rows, grouped by image, against the
  last axis of the weight: entry `(b, l, e)` is `∑ k, rows (b, l, k) · W (e, k)` — the batched contraction of
  `PatchMix`. The reshapes before and after it keep row-major order, so the array it folds back is the one the
  product of the ungrouped rows gives (`PatchMix.batched_route`).
-/
import proofs.«170082_j6133213298738_1_alg».proof.Proof.Gen.ReferenceIdeal.Read
import proofs.«170082_j6133213298738_1_alg».proof.Proof.PatchMix

noncomputable section

open scoped BigOperators

namespace Cert.ReferenceIdeal.MixValue

open Cert.ReferenceIdeal Cert.ReferenceIdeal.Gen Cert.ReferenceIdeal.Read Idealize.ShloMosaic Idealize.ShloMosaic.ValueIdx
open Cert.PatchMix (mix batchedMix unfold fold mixed)

/-- The contraction at an entry, with the operands' indices named by their coordinates. -/
theorem dot_eq (x : (⟨S16x64x256x256, .f32⟩ : BufTy).Contents (Elt Ideal)) (w : (⟨S1024x1024, .f32⟩ : BufTy).Contents (Elt Ideal)) :
    val_main_v3 (F := Ideal) x w = batchedMix (val_main_v2 (F := Ideal) x) w := by
  funext i
  rw [val_main_v3_apply]
  unfold batchedMix
  refine Finset.sum_congr rfl fun k _ => ?_
  have el : lidx_main_v3 i k = ix3 (i 0) (i 1) k := funext fun a => Fin.ext (by
    match a with
    | ⟨0, _⟩ => rfl
    | ⟨1, _⟩ => rfl
    | ⟨2, _⟩ => rfl)
  have er : ridx_main_v3 i k = ix2 (i 2) k := funext fun a => Fin.ext (by
    match a with
    | ⟨0, _⟩ => rfl
    | ⟨1, _⟩ => rfl)
  rw [el, er]
  rfl

/-- The reference's result is the mixed image. -/
theorem result_eq (x : (⟨S16x64x256x256, .f32⟩ : BufTy).Contents (Elt Ideal)) (w : (⟨S1024x1024, .f32⟩ : BufTy).Contents (Elt Ideal)) :
    val_main_v6 (F := Ideal) x w = mixed x w := by
  unfold val_main_v6 val_main_v5 val_main_v4
  rw [dot_eq]
  show fold (shapeCast Cert.PatchMix.Patches (batchedMix (shapeCast Cert.PatchMix.Batched (unfold x) Cert.PatchMix.patches_batched) w) Cert.PatchMix.batched_patches) = _
  rw [Cert.PatchMix.batched_route]
  rfl

end Cert.ReferenceIdeal.MixValue

end
-- ==== Proof.lean ====
/- The proof of `Cert.Claim`: a patch-wise mix of an image by one shared square weight.

   Both programs cut the image `x : [16, 64, 256, 256]` into non-overlapping 4 × 4 patches, one row of 1024 entries
   per patch, multiply every row by the transpose of `W : [1024, 1024]`, and put the rows back into the image's
   layout (`Proof/PatchMix.lean`: `mixed x W`). The kernel holds the rows as a `[65536, 1024]` matrix and multiplies
   them 1024 rows at a time, each block into a zero accumulator, by the weight transposed on the host beforehand
   (`Proof/BlockProduct.lean`, `Proof/KernelArray.lean`, `Proof/KernelRun.lean`); the reference holds them as
   `[16, 4096, 1024]` and contracts the last axis against the weight's last axis (`Proof/ReferenceValue.lean`).
   On extended reals the narrowing of the kernel's operands to bf16 is the identity, both entries are the same sum
   `∑ k, row (k) · W (e, k)` in the same order, and a reshape of a reshape is a reshape, so the two results are one
   array. Nothing here needs the inputs finite.

   The three frames are the generated frame runs (the reference's is its generated run with the result dropped); the
   idealization rewrote nothing, so `preserves` is `True`. -/
import proofs.«170082_j6133213298738_1_alg».proof.Defs
import proofs.«170082_j6133213298738_1_alg».proof.Proof.Gen.Kernel
import proofs.«170082_j6133213298738_1_alg».proof.Proof.Gen.Kernel.Skeleton
import proofs.«170082_j6133213298738_1_alg».proof.Proof.Gen.Kernel.Launch
import proofs.«170082_j6133213298738_1_alg».proof.Proof.Gen.Kernel.Points
import proofs.«170082_j6133213298738_1_alg».proof.Proof.Gen.Kernel.Frame
import proofs.«170082_j6133213298738_1_alg».proof.Proof.Gen.KernelIdeal
import proofs.«170082_j6133213298738_1_alg».proof.Proof.Gen.KernelIdeal.Skeleton
import proofs.«170082_j6133213298738_1_alg».proof.Proof.Gen.KernelIdeal.Launch
import proofs.«170082_j6133213298738_1_alg».proof.Proof.Gen.KernelIdeal.Points
import proofs.«170082_j6133213298738_1_alg».proof.Proof.Gen.KernelIdeal.Frame
import proofs.«170082_j6133213298738_1_alg».proof.Proof.Gen.ReferenceIdeal
import proofs.«170082_j6133213298738_1_alg».proof.Proof.Gen.Pre_finite_inputs
import proofs.«170082_j6133213298738_1_alg».proof.Proof.Gen.ReferenceIdeal.Run
import proofs.«170082_j6133213298738_1_alg».proof.Proof.Gen.ReferenceIdeal.Read
import proofs.«170082_j6133213298738_1_alg».proof.Proof.KernelRun
import proofs.«170082_j6133213298738_1_alg».proof.Proof.ReferenceValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read on extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the image and the weight, both programs end with their result at the mixed image. -/
theorem algebraic : Cert.algebraic_KernelIdeal_ReferenceIdeal := by
  intro m ρ m' ρ' _ hagree
  refine ⟨fun c => Cert.PatchMix.mixed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.MixRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.MixValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
